-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S64x4x256x256 : Shape := ⟨4, ![64, 4, 256, 256]⟩
abbrev S64x4x256 : Shape := ⟨3, ![64, 4, 256]⟩
abbrev S65 : Shape := ⟨1, ![65]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S64x4x256x256 : S_.BroadcastsInDim S64x4x256x256 (![] : Fin 0 → Fin S64x4x256x256.rank)
  reducesTo_S64x4x256x256_S_d0_1_2_3 : S64x4x256x256.ReducesTo [0, 1, 2, 3] S_
  bcast_S_S64x4x256 : S_.BroadcastsInDim S64x4x256 (![] : Fin 0 → Fin S64x4x256.rank)
  reducesTo_S64x4x256_S_d0_1_2 : S64x4x256.ReducesTo [0, 1, 2] S_

variable [Facts]

def fn {F : FTy → Type} [FloatOps F] (main_arg0 : FVec F S262144x256 .f32) (main_arg1 : FVec F S64x4x256x256 .f32) (main_arg2 : FVec F S64x4x256 .f32) (main_arg3 : IVec S65 32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S64x4x256x256 .f32 := Host.absf main_arg1
  let main_cst_0 : FVec F S_ .f32 := constant S_ .f32 0x7F800000#32
  let main_v5 : FVec F S64x4x256x256 .f32 := broadcastInDim S64x4x256x256 ![] bcast_S_S64x4x256x256 main_cst_0
  let main_v6 : IVec S64x4x256x256 1 := cmpf .olt main_v4 main_v5
  let main_c_1 : IVec S_ 1 := constantI S_ 1 1#1
  let main_v7 : IVec S_ 1 := (fun x v => Host.reduce IntOp.andi x v reducesTo_S64x4x256x256_S_d0_1_2_3 h_S_) main_v6 main_c_1
  let main_v8 : IVec S_ 1 := andi main_v3 main_v7
  let main_v9 : FVec F S64x4x256 .f32 := Host.absf main_arg2
  let main_cst_2 : FVec F S_ .f32 := constant S_ .f32 0x7F800000#32
  let main_v10 : FVec F S64x4x256 .f32 := broadcastInDim S64x4x256 ![] bcast_S_S64x4x256 main_cst_2
  let main_v11 : IVec S64x4x256 1 := cmpf .olt main_v9 main_v10
  let main_c_3 : IVec S_ 1 := constantI S_ 1 1#1
  let main_v12 : IVec S_ 1 := (fun x v => Host.reduce IntOp.andi x v reducesTo_S64x4x256_S_d0_1_2 h_S_) main_v11 main_c_3
  let main_v13 : IVec S_ 1 := andi main_v8 main_v12
  main_v13
-- ==== Kernel.lean ====
abbrev S262144x256 : Shape := ⟨2, ![262144, 256]⟩
abbrev S64x4x256x256 : Shape := ⟨4, ![64, 4, 256, 256]⟩
abbrev S64x4x256 : Shape := ⟨3, ![64, 4, 256]⟩
abbrev S65 : Shape := ⟨1, ![65]⟩
abbrev S1024x256 : Shape := ⟨2, ![1024, 256]⟩
abbrev S1x4x256x256 : Shape := ⟨4, ![1, 4, 256, 256]⟩
abbrev S1x4x256 : Shape := ⟨3, ![1, 4, 256]⟩
abbrev S1x1x256x256 : Shape := ⟨4, ![1, 1, 256, 256]⟩
abbrev S256x256 : Shape := ⟨2, ![256, 256]⟩
abbrev S1x1x256 : Shape := ⟨3, ![1, 1, 256]⟩
abbrev S256 : Shape := ⟨1, ![256]⟩
abbrev S1x256 : Shape := ⟨2, ![1, 256]⟩

abbrev nBuf : Space → Nat
  | .hbm => 5
  | .vmem => 8
  | .smem => 0
  | _ => 0

abbrev bufTy : (tb : Table) → Fin (tcTables nBuf tb) → BufTy
  | .hbm, ⟨0, _⟩ => ⟨S262144x256, .f32⟩
  | .hbm, ⟨1, _⟩ => ⟨S64x4x256x256, .f32⟩
  | .hbm, ⟨2, _⟩ => ⟨S64x4x256, .f32⟩
  | .hbm, ⟨3, _⟩ => ⟨S65, .i32⟩
  | .hbm, ⟨4, _⟩ => ⟨S262144x256, .f32⟩
  | .local _ .vmem, ⟨0, _⟩ => ⟨S1024x256, .f32⟩
  | .local _ .vmem, ⟨1, _⟩ => ⟨S1024x256, .f32⟩
  | .local _ .vmem, ⟨2, _⟩ => ⟨S1x4x256x256, .f32⟩
  | .local _ .vmem, ⟨3, _⟩ => ⟨S1x4x256x256, .f32⟩
  | .local _ .vmem, ⟨4, _⟩ => ⟨S1x4x256, .f32⟩
  | .local _ .vmem, ⟨5, _⟩ => ⟨S1x4x256, .f32⟩
  | .local _ .vmem, ⟨6, _⟩ => ⟨S1024x256, .f32⟩
  | .local _ .vmem, ⟨7, _⟩ => ⟨S1024x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S1x4x256x256_S1x1x256x256_0_0_0_0 : ∀ a, (![0, 0, 0, 0] : Fin 4 → Nat) a + S1x1x256x256.size a ≤ S1x4x256x256.size a
  h_S1x1x256x256 : 0 < S1x1x256x256.numel
  shapeCasts_S1x1x256x256_S256x256 : S1x1x256x256.ShapeCasts S256x256
  inb_S1x4x256_S1x1x256_0_0_0 : ∀ a, (![0, 0, 0] : Fin 3 → Nat) a + S1x1x256.size a ≤ S1x4x256.size a
  h_S1x1x256 : 0 < S1x1x256.numel
  shapeCasts_S1x1x256_S256 : S1x1x256.ShapeCasts S256
  shapeCasts_S256_S1x256 : S256.ShapeCasts S1x256
  broadcasts_S1x256_S1024x256 : S1x256.Broadcasts S1024x256
  inb_S1x4x256x256_S1x1x256x256_0_1_0_0 : ∀ a, (![0, 1, 0, 0] : Fin 4 → Nat) a + S1x1x256x256.size a ≤ S1x4x256x256.size a
  inb_S1x4x256_S1x1x256_0_1_0 : ∀ a, (![0, 1, 0] : Fin 3 → Nat) a + S1x1x256.size a ≤ S1x4x256.size a
  inb_S1x4x256x256_S1x1x256x256_0_2_0_0 : ∀ a, (![0, 2, 0, 0] : Fin 4 → Nat) a + S1x1x256x256.size a ≤ S1x4x256x256.size a
  inb_S1x4x256_S1x1x256_0_2_0 : ∀ a, (![0, 2, 0] : Fin 3 → Nat) a + S1x1x256.size a ≤ S1x4x256.size a
  inb_S1x4x256x256_S1x1x256x256_0_3_0_0 : ∀ a, (![0, 3, 0, 0] : Fin 4 → Nat) a + S1x1x256x256.size a ≤ S1x4x256x256.size a
  inb_S1x4x256_S1x1x256_0_3_0 : ∀ a, (![0, 3, 0] : Fin 3 → Nat) a + S1x1x256.size a ≤ S1x4x256.size a
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S262144x256.size a
  hwx0_0 : ∀ i : grid0.Coords, EltTy.bits .f32 = 32 ∨ (Rect.block (s := S262144x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x256x256.size a ≤ S64x4x256x256.size a
  hwx0_1 : ∀ i : grid0.Coords, EltTy.bits .f32 = 32 ∨ (Rect.block (s := S64x4x256x256) S1x4x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x256.size a ≤ S64x4x256.size a
  hwx0_2 : ∀ i : grid0.Coords, EltTy.bits .f32 = 32 ∨ (Rect.block (s := S64x4x256) S1x4x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S262144x256.size a
  hwx0_3 : ∀ i : grid0.Coords, EltTy.bits .f32 = 32 ∨ (Rect.block (s := S262144x256) S1024x256.size (cc0_transform_3 i) (hinb0_3 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x256 : Shape := ⟨2, ![262144, 256]⟩
abbrev S64x4x256x256 : Shape := ⟨4, ![64, 4, 256, 256]⟩
abbrev S64x4x256 : Shape := ⟨3, ![64, 4, 256]⟩
abbrev S65 : Shape := ⟨1, ![65]⟩
abbrev S64x4096x256 : Shape := ⟨3, ![64, 4096, 256]⟩
abbrev S64x1x256x256 : Shape := ⟨4, ![64, 1, 256, 256]⟩
abbrev S64x256x256 : Shape := ⟨3, ![64, 256, 256]⟩
abbrev S64x1x256 : Shape := ⟨3, ![64, 1, 256]⟩
abbrev S64x256 : Shape := ⟨2, ![64, 256]⟩

abbrev nBuf : Space → Nat
  | .hbm => 38
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S64x4x256x256, .f32⟩
  | .hbm, ⟨2, _⟩ => ⟨S64x4x256, .f32⟩
  | .hbm, ⟨3, _⟩ => ⟨S65, .i32⟩
  | .hbm, ⟨4, _⟩ => ⟨S64x4096x256, .f32⟩
  | .hbm, ⟨5, _⟩ => ⟨S64x1x256x256, .f32⟩
  | .hbm, ⟨6, _⟩ => ⟨S64x256x256, .f32⟩
  | .hbm, ⟨7, _⟩ => ⟨S64x4096x256, .f32⟩
  | .hbm, ⟨8, _⟩ => ⟨S64x1x256, .f32⟩
  | .hbm, ⟨9, _⟩ => ⟨S64x256, .f32⟩
  | .hbm, ⟨10, _⟩ => ⟨S64x1x256, .f32⟩
  | .hbm, ⟨11, _⟩ => ⟨S64x4096x256, .f32⟩
  | .hbm, ⟨12, _⟩ => ⟨S64x4096x256, .f32⟩
  | .hbm, ⟨13, _⟩ => ⟨S64x1x256x256, .f32⟩
  | .hbm, ⟨14, _⟩ => ⟨S64x256x256, .f32⟩
  | .hbm, ⟨15, _⟩ => ⟨S64x4096x256, .f32⟩
  | .hbm, ⟨16, _⟩ => ⟨S64x1x256, .f32⟩
  | .hbm, ⟨17, _⟩ => ⟨S64x256, .f32⟩
  | .hbm, ⟨18, _⟩ => ⟨S64x1x256, .f32⟩
  | .hbm, ⟨19, _⟩ => ⟨S64x4096x256, .f32⟩
  | .hbm, ⟨20, _⟩ => ⟨S64x4096x256, .f32⟩
  | .hbm, ⟨21, _⟩ => ⟨S64x1x256x256, .f32⟩
  | .hbm, ⟨22, _⟩ => ⟨S64x256x256, .f32⟩
  | .hbm, ⟨23, _⟩ => ⟨S64x4096x256, .f32⟩
  | .hbm, ⟨24, _⟩ => ⟨S64x1x256, .f32⟩
  | .hbm, ⟨25, _⟩ => ⟨S64x256, .f32⟩
  | .hbm, ⟨26, _⟩ => ⟨S64x1x256, .f32⟩
  | .hbm, ⟨27, _⟩ => ⟨S64x4096x256, .f32⟩
  | .hbm, ⟨28, _⟩ => ⟨S64x4096x256, .f32⟩
  | .hbm, ⟨29, _⟩ => ⟨S64x1x256x256, .f32⟩
  | .hbm, ⟨30, _⟩ => ⟨S64x256x256, .f32⟩
  | .hbm, ⟨31, _⟩ => ⟨S64x4096x256, .f32⟩
  | .hbm, ⟨32, _⟩ => ⟨S64x1x256, .f32⟩
  | .hbm, ⟨33, _⟩ => ⟨S64x256, .f32⟩
  | .hbm, ⟨34, _⟩ => ⟨S64x1x256, .f32⟩
  | .hbm, ⟨35, _⟩ => ⟨S64x4096x256, .f32⟩
  | .hbm, ⟨36, _⟩ => ⟨S64x4096x256, .f32⟩
  | .hbm, ⟨37, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩

abbrev nD : Nat := 1
abbrev τ : Topo := Topo.v7x

variable {F : FTy → Type} [FloatOps F]

class Facts₀ : Prop where
  shapeCasts_S262144x256_S64x4096x256 : S262144x256.ShapeCasts S64x4096x256
  slices_S64x4x256x256_S64x1x256x256_0_0_0_0 : S64x4x256x256.Slices ![0, 0, 0, 0] S64x1x256x256
  shapeCasts_S64x1x256x256_S64x256x256 : S64x1x256x256.ShapeCasts S64x256x256
  slices_S64x4x256_S64x1x256_0_0_0 : S64x4x256.Slices ![0, 0, 0] S64x1x256
  shapeCasts_S64x1x256_S64x256 : S64x1x256.ShapeCasts S64x256
  bcast_S64x256_S64x1x256_0_2 : S64x256.BroadcastsInDim S64x1x256 (![0, 2] : Fin 2 → Fin S64x1x256.rank)
  bcast_S64x1x256_S64x4096x256_0_1_2 : S64x1x256.BroadcastsInDim S64x4096x256 (![0, 1, 2] : Fin 3 → Fin S64x4096x256.rank)
  slices_S64x4x256x256_S64x1x256x256_0_1_0_0 : S64x4x256x256.Slices ![0, 1, 0, 0] S64x1x256x256
  slices_S64x4x256_S64x1x256_0_1_0 : S64x4x256.Slices ![0, 1, 0] S64x1x256
  slices_S64x4x256x256_S64x1x256x256_0_2_0_0 : S64x4x256x256.Slices ![0, 2, 0, 0] S64x1x256x256
  slices_S64x4x256_S64x1x256_0_2_0 : S64x4x256.Slices ![0, 2, 0] S64x1x256
  slices_S64x4x256x256_S64x1x256x256_0_3_0_0 : S64x4x256x256.Slices ![0, 3, 0, 0] S64x1x256x256
  slices_S64x4x256_S64x1x256_0_3_0 : S64x4x256.Slices ![0, 3, 0] S64x1x256
  shapeCasts_S64x4096x256_S262144x256 : S64x4096x256.ShapeCasts S262144x256
  dot_S64x4096x256_S64x256x256_S64x4096x256_2_1_1_2_0_0_wf : DotDims.WF S64x4096x256 S64x256x256 S64x4096x256 [2] [1] [1] [2] [0] [0]

variable [Facts₀]

def dot_S64x4096x256_S64x256x256_S64x4096x256_2_1_1_2_0_0 : DotDims S64x4096x256 S64x256x256 S64x4096x256 where
  lhsContracting := [2]
  rhsContracting := [1]
  lhsNonContracting := [1]
  rhsNonContracting := [2]
  lhsBatch := [0]
  rhsBatch := [0]
  wf := dot_S64x4096x256_S64x256x256_S64x4096x256_2_1_1_2_0_0_wf

class Facts : Prop extends Facts₀ where

variable [Facts]
-- ==== Proof.Spec.lean ====
/-
  The grouped linear ensemble, as one function of the argument arrays.

  There are 64 models, each owning 4096 consecutive rows of `x : [262144, 256]`; model `m` applies to
  each of its rows, four times over (`l = 0, 1, 2, 3`),
      h ↦ h · W[m, l] + b[m, l],        i.e.   h'[r, g] = ∑ k, h[r, k] * W[m, l, k, g] + b[m, l, g],
  with no nonlinearity between the layers. Over the extended reals this is written here index by index
  (`layer`, `stack`), and then twice more in the two arrangements in which it is computed:
    * on a TILE of 1024 consecutive rows that lie inside one model's slice, against that model's own
      `[1, 1, 256, 256]` weight matrix and `[1, 1, 256]` bias row of one layer (`tileLayer`), and
    * on the rows GROUPED by model, `[64, 4096, 256]`, as one batched product per layer (`grpLayer`).
  Each arrangement is the restriction (resp. the regrouping) of `layer`: `tileLayer_restrict`,
  `grpLayer_flat`. Only the shape of the sums is used: the same products are added in the same order,
  so nothing is asked of the entries (no finiteness).
-/
import Idealize.ShloMosaic.PureOps.Ideal
import Idealize.ShloMosaic.Lib.ValueIdx

noncomputable section

open scoped BigOperators

namespace Cert.Ensemble

open Idealize.ShloMosaic Idealize.ShloMosaic.ValueIdx

/-- The rows: 64 models × 4096 rows each, 256 features. -/
abbrev SRows : Shape := ⟨2, ![262144, 256]⟩
/-- The weights: per model, per layer, a 256 × 256 matrix. -/
abbrev SWts : Shape := ⟨4, ![64, 4, 256, 256]⟩
/-- The biases: per model, per layer, a row of 256. -/
abbrev SBias : Shape := ⟨3, ![64, 4, 256]⟩
/-- The rows grouped by model. -/
abbrev SGrp : Shape := ⟨3, ![64, 4096, 256]⟩
/-- A tile of 1024 rows. -/
abbrev STile : Shape := ⟨2, ![1024, 256]⟩
/-- One model's weight matrix of one layer, with its two unit axes kept. -/
abbrev SW1 : Shape := ⟨4, ![1, 1, 256, 256]⟩
/-- One model's bias row of one layer, with its two unit axes kept. -/
abbrev SB1 : Shape := ⟨3, ![1, 1, 256]⟩

/-- The model that owns row `r`: rows are dealt to the models in consecutive slices of 4096. -/
def owner (r : Fin 262144) : Fin 64 := ⟨r.val / 4096, by have := r.isLt; omega⟩

/-- Layer `l` at row `r`, feature `g`: the row times its owner's matrix, plus its owner's bias. -/
def layerAt (W : SWts.Idx → EReal) (B : SBias.Idx → EReal) (l : Fin 4) (h : SRows.Idx → EReal)
    (r : Fin 262144) (g : Fin 256) : EReal :=
  (∑ k : Fin 256, h (ix2 r k) * W (ix4 (owner r) l k g)) + B (ix3 (owner r) l g)

/-- Layer `l` of the ensemble, on all rows at once. -/
def layer (W : SWts.Idx → EReal) (B : SBias.Idx → EReal) (l : Fin 4) (h : SRows.Idx → EReal) :
    SRows.Idx → EReal := fun i => layerAt W B l h (i 0) (i 1)

theorem layer_apply (W : SWts.Idx → EReal) (B : SBias.Idx → EReal) (l : Fin 4) (h : SRows.Idx → EReal)
    (r : Fin 262144) (g : Fin 256) : layer W B l h (ix2 r g) = layerAt W B l h r g := rfl

/-- The four layers, one after the other. -/
def stack (x : SRows.Idx → EReal) (W : SWts.Idx → EReal) (B : SBias.Idx → EReal) : SRows.Idx → EReal :=
  layer W B 3 (layer W B 2 (layer W B 1 (layer W B 0 x)))

/-! ## On a tile of rows inside one model's slice -/

/-- One layer on a tile, against ONE matrix and ONE bias row: at `(p, q)` the tile's row `p` times the
    matrix's column `q`, plus the bias at `q`. -/
def tileLayerAt (h : STile.Idx → EReal) (w : SW1.Idx → EReal) (b : SB1.Idx → EReal)
    (p : Fin 1024) (q : Fin 256) : EReal :=
  (∑ k : Fin 256, h (ix2 p k) * w (ix4 (0 : Fin 1) (0 : Fin 1) k q)) + b (ix3 (0 : Fin 1) (0 : Fin 1) q)

def tileLayer (h : STile.Idx → EReal) (w : SW1.Idx → EReal) (b : SB1.Idx → EReal) : STile.Idx → EReal :=
  fun y => tileLayerAt h w b (y 0) (y 1)

theorem tileLayer_apply (h : STile.Idx → EReal) (w : SW1.Idx → EReal) (b : SB1.Idx → EReal)
    (p : Fin 1024) (q : Fin 256) : tileLayer h w b (ix2 p q) = tileLayerAt h w b p q := rfl

/-- Row `p` of the tile that starts at row `R0`. -/
def rowAt (R0 : Nat) (hR : R0 + 1024 ≤ 262144) (p : Fin 1024) : Fin 262144 :=
  ⟨R0 + p.val, by have := p.isLt; omega⟩

/-- A TILE LAYER IS THE LAYER, RESTRICTED: if the tile holds rows `R0 …  R0 + 1023` of `h`, all owned by
    model `mdl`, and the matrix and bias row are that model's for layer `l`, then the tile layer holds the
    same rows of `layer W B l h`. -/
theorem tileLayer_restrict (W : SWts.Idx → EReal) (B : SBias.Idx → EReal) (l : Fin 4)
    (R0 : Nat) (hR : R0 + 1024 ≤ 262144) (mdl : Fin 64)
    (hm : ∀ p : Fin 1024, (R0 + p.val) / 4096 = mdl.val)
    (ht : STile.Idx → EReal) (h : SRows.Idx → EReal)
    (hh : ∀ (p : Fin 1024) (q : Fin 256), ht (ix2 p q) = h (ix2 (rowAt R0 hR p) q))
    (w : SW1.Idx → EReal) (hw : ∀ k g : Fin 256, w (ix4 (0 : Fin 1) (0 : Fin 1) k g) = W (ix4 mdl l k g))
    (b : SB1.Idx → EReal) (hb : ∀ g : Fin 256, b (ix3 (0 : Fin 1) (0 : Fin 1) g) = B (ix3 mdl l g))
    (p : Fin 1024) (q : Fin 256) :
    tileLayer ht w b (ix2 p q) = layer W B l h (ix2 (rowAt R0 hR p) q) := by
  have ho : owner (rowAt R0 hR p) = mdl := Fin.ext (hm p)
  rw [tileLayer_apply, layer_apply]
  unfold tileLayerAt layerAt
  rw [ho, hb]
  congr 1
  exact Finset.sum_congr rfl fun k _ => by rw [hh, hw]

/-! ## On the rows grouped by model -/

/-- Row `b` of model `a`'s slice. -/
def flat (a : Fin 64) (b : Fin 4096) : Fin 262144 :=
  ⟨a.val * 4096 + b.val, by have := a.isLt; have := b.isLt; omega⟩

theorem owner_flat (a : Fin 64) (b : Fin 4096) : owner (flat a b) = a :=
  Fin.ext (by show (a.val * 4096 + b.val) / 4096 = a.val; have := b.isLt; omega)

/-- One layer on the grouped rows: per model `a`, its `[4096, 256]` slice times its matrix, plus its bias
    row on every row. -/
def grpLayerAt (W : SWts.Idx → EReal) (B : SBias.Idx → EReal) (l : Fin 4) (h : SGrp.Idx → EReal)
    (a : Fin 64) (b : Fin 4096) (g : Fin 256) : EReal :=
  (∑ k : Fin 256, h (ix3 a b k) * W (ix4 a l k g)) + B (ix3 a l g)

def grpLayer (W : SWts.Idx → EReal) (B : SBias.Idx → EReal) (l : Fin 4) (h : SGrp.Idx → EReal) :
    SGrp.Idx → EReal := fun j => grpLayerAt W B l h (j 0) (j 1) (j 2)

theorem grpLayer_apply (W : SWts.Idx → EReal) (B : SBias.Idx → EReal) (l : Fin 4) (h : SGrp.Idx → EReal)
    (a : Fin 64) (b : Fin 4096) (g : Fin 256) : grpLayer W B l h (ix3 a b g) = grpLayerAt W B l h a b g := rfl

/-- A GROUPED LAYER IS THE LAYER, REGROUPED: if `h3` is `h2` with its rows grouped by model, then the
    grouped layer of `h3` is `layer W B l h2` with its rows grouped by model. -/
theorem grpLayer_flat (W : SWts.Idx → EReal) (B : SBias.Idx → EReal) (l : Fin 4)
    (h3 : SGrp.Idx → EReal) (h2 : SRows.Idx → EReal)
    (hh : ∀ (a : Fin 64) (b : Fin 4096) (g : Fin 256), h3 (ix3 a b g) = h2 (ix2 (flat a b) g))
    (a : Fin 64) (b : Fin 4096) (g : Fin 256) :
    grpLayer W B l h3 (ix3 a b g) = layer W B l h2 (ix2 (flat a b) g) := by
  rw [grpLayer_apply, layer_apply]
  unfold grpLayerAt layerAt
  rw [owner_flat]
  congr 1
  exact Finset.sum_congr rfl fun k _ => by rw [hh]

end Cert.Ensemble

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.KernelTile.lean ====
/-
  The kernel body on one tile, at the ideal instance.

  The body loads a tile of 1024 rows, and for each of the four layers the layer's 256 × 256 matrix and its
  bias row out of the model's `[1, 4, 256, 256]` and `[1, 4, 256]` blocks; it multiplies the tile by the
  matrix on the matrix unit (accumulating into zeros), adds the bias row to every row, and narrows the result to
  bf16 before the next layer. At the ideal instance a change of float format is the identity and the matrix
  unit's product is the plain sum of products, so each layer is `Ensemble.tileLayer` and the two payloads of
  the body are three, resp. one, tile layers.
-/
import proofs.«105987_j38663295599268_1_alg».proof.Proof.Gen.KernelIdeal.Skeleton
import proofs.«105987_j38663295599268_1_alg».proof.Proof.Spec
import proofs.«105987_j38663295599268_1_alg».proof.Proof.LibDot2
import Idealize.ShloMosaic.Lib.ValueIdx
import Idealize.ShloMosaic.Lib.ValueLayout
import Idealize.ShloMosaic.Lib.Pipeline.Value

noncomputable section

open scoped BigOperators

namespace Cert.KernelIdeal.Tile

open Cert.KernelIdeal Cert.KernelIdeal.Gen Cert.Ensemble Idealize.ShloMosaic Idealize.ShloMosaic.ValueIdx

/-- A `[1, 1, 256, 256]` array cast to `[256, 256]` reads, at `(k, q)`, the operand at `(0, 0, k, q)`. -/
theorem cast_matrix {α : Type} (w : (⟨4, ![1, 1, 256, 256]⟩ : Shape).Idx → α)
    (h : (⟨4, ![1, 1, 256, 256]⟩ : Shape).ShapeCasts ⟨2, ![256, 256]⟩) (k q : Fin 256) :
    shapeCast ⟨2, ![256, 256]⟩ w h (ix2 k q) = w (ix4 (0 : Fin 1) (0 : Fin 1) k q) :=
  shapeCast_apply w h _ _ (by
    rw [Shape.rowMajor_val_four, Shape.rowMajor_val_two]
    show ((0 * 1 + 0) * 256 + k.val) * 256 + q.val = k.val * 256 + q.val
    omega)

/-- A `[1, 1, 256]` array cast to `[256]` reads, at `q`, the operand at `(0, 0, q)`. -/
theorem cast_row {α : Type} (b : (⟨3, ![1, 1, 256]⟩ : Shape).Idx → α)
    (h : (⟨3, ![1, 1, 256]⟩ : Shape).ShapeCasts ⟨1, ![256]⟩) (q : Fin 256) :
    shapeCast ⟨1, ![256]⟩ b h (ix1 q) = b (ix3 (0 : Fin 1) (0 : Fin 1) q) :=
  shapeCast_apply b h _ _ (by
    rw [Shape.rowMajor_val_three, Shape.rowMajor_val_one]
    show (0 * 1 + 0) * 256 + q.val = q.val
    omega)

/-- ONE LAYER OF THE BODY: the tile (in whatever float format it is held) times the layer's matrix, narrowed
    to bf16, accumulated into zeros, plus the layer's bias row broadcast over the rows, is the tile layer. -/
theorem body_layer {φ : FTy} (h : FVec Ideal S1024x256 φ) (w : Vec Ideal S1x1x256x256 .f32) (b : Vec Ideal S1x1x256 .f32)
    (hc1 : S1x1x256x256.ShapeCasts S256x256) (hlt : FTy.bits .bf16 < FTy.bits .f32)
    (hc2 : S1x1x256.ShapeCasts S256) (hc3 : S256.ShapeCasts S1x256) (hbc : S1x256.Broadcasts S1024x256) :
    addf (matmul dot_S1024x256_S256x256_S1024x256_1_0_0_1_n_n none h (truncf .bf16 (shapeCast S256x256 w hc1) hlt)
        (constant S1024x256 .f32 0x00000000#32))
      (broadcastTo S1024x256 (shapeCast S1x256 (shapeCast S256 b hc2) hc3) hbc)
    = tileLayer h w b := by
  funext y
  obtain ⟨p, q, rfl⟩ : ∃ (p : Fin 1024) (q : Fin 256), y = ix2 p q := ⟨y 0, y 1, eq_ix2 y⟩
  rw [tileLayer_apply, addf_apply]
  unfold tileLayerAt
  congr 1
  · refine (Dot2.matmul_zero_mm_apply (M := 1024) (K := 256) (N := 256)
      dot_S1024x256_S256x256_S1024x256_1_0_0_1_n_n_wf none h (truncf .bf16 (shapeCast S256x256 w hc1) hlt) p q).trans ?_
    refine Finset.sum_congr rfl fun k _ => ?_
    rw [truncf_apply, cast_matrix]
  · rw [broadcastTo_1b_ab_apply, shapeCast_a_1a_apply, cast_row]

/-- The first payload of the body (layers 0, 1, 2, each narrowed to bf16) is three tile layers. -/
theorem pay2_eq (v0 : Vec Ideal S1024x256 .f32) (v2 : Vec Ideal S1x1x256x256 .f32) (v5 : Vec Ideal S1x1x256 .f32)
    (v12 : Vec Ideal S1x1x256x256 .f32) (v15 : Vec Ideal S1x1x256 .f32)
    (v22 : Vec Ideal S1x1x256x256 .f32) (v25 : Vec Ideal S1x1x256 .f32) :
    k0_pay2 (F := Ideal) v0 v2 v5 v12 v15 v22 v25
      = tileLayer (tileLayer (tileLayer v0 v2 v5) v12 v15) v22 v25 := by
  unfold k0_pay2
  simp only [body_layer]
  rfl

/-- The second payload of the body (layer 3, stored as it is) is one more tile layer. -/
theorem pay1_eq (v31 : FVec Ideal S1024x256 .bf16) (v32 : Vec Ideal S1x1x256x256 .f32) (v35 : Vec Ideal S1x1x256 .f32) :
    k0_pay1 (F := Ideal) v31 v32 v35 = tileLayer v31 v32 v35 := by
  unfold k0_pay1
  simp only [body_layer]

end Cert.KernelIdeal.Tile

end
-- ==== Proof.KernelValue.lean ====
/-
  The kernel's result array is the ensemble of its argument arrays.

  The grid has 256 points, in row-major order of (model, row tile): point `t` is model `t / 4`, row tile `t % 4`.
  At point `t` the body reads rows `1024 t … 1024 t + 1023` of `x` (all of model `t / 4`'s slice, since
  `4096 = 4 · 1024`), that model's whole weight and bias stacks, and writes the same rows of the result. By
  `KernelTile` what it writes is four tile layers of what it reads, and by `Ensemble.tileLayer_restrict`, four
  times, those are rows `1024 t …` of `Ensemble.stack`. The 256 row tiles cover the result array, so after the
  run the result array IS `Ensemble.stack` of the argument arrays.
-/
import proofs.«105987_j38663295599268_1_alg».proof.Proof.Gen.KernelIdeal.Value
import proofs.«105987_j38663295599268_1_alg».proof.Proof.KernelTile

noncomputable section

open scoped BigOperators

namespace Cert.KernelIdeal.Whole

open Cert.KernelIdeal Cert.KernelIdeal.Gen Cert.KernelIdeal.Tile Cert.Ensemble
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The argument arrays and the blocks at a point, at their literal types -/

abbrev rowsArr (c : Dev nD) : Vec Ideal S262144x256 .f32 := V m c main_arg0
abbrev wtsArr (c : Dev nD) : Vec Ideal S64x4x256x256 .f32 := V m c main_arg1
abbrev biasArr (c : Dev nD) : Vec Ideal S64x4x256 .f32 := V m c main_arg2

abbrev rowsBlk (c : Dev nD) (t : Fin cfg0.N) : Vec Ideal S1024x256 .f32 := iblk m c 0 t
abbrev wtsBlk (c : Dev nD) (t : Fin cfg0.N) : Vec Ideal S1x4x256x256 .f32 := iblk m c 1 t
abbrev biasBlk (c : Dev nD) (t : Fin cfg0.N) : Vec Ideal S1x4x256 .f32 := iblk m c 2 t

/-! ## The index maps over the grid -/

/-- The printed index maps, decided over the 256 points: the row windows (input 0 and the output) are at block
    row `t`, the weight and bias windows at block `t / 4` on the model axis, every other block index zero. -/
theorem idx_facts : ∀ t : Fin cfg0.N,
    win0_0.index t (0 : Fin 2) = t.val ∧ win0_0.index t (1 : Fin 2) = 0
    ∧ win0_1.index t (0 : Fin 4) = t.val / 4 ∧ win0_1.index t (1 : Fin 4) = 0
    ∧ win0_1.index t (2 : Fin 4) = 0 ∧ win0_1.index t (3 : Fin 4) = 0
    ∧ win0_2.index t (0 : Fin 3) = t.val / 4 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- The first row of point `t`'s tile, inside the array. -/
theorem tile_inb (t : Fin cfg0.N) : t.val * 1024 + 1024 ≤ 262144 := by
  have : t.val < 256 := t.isLt
  omega

/-- The model of point `t`. -/
def modelAt (t : Fin cfg0.N) : Fin 64 := ⟨t.val / 4, by have : t.val < 256 := t.isLt; omega⟩

/-- Every row of point `t`'s tile is owned by model `t / 4`. -/
theorem tile_owner (t : Fin cfg0.N) (p : Fin 1024) : (t.val * 1024 + p.val) / 4096 = (modelAt t).val := by
  have : t.val < 256 := t.isLt
  have := p.isLt
  show (t.val * 1024 + p.val) / 4096 = t.val / 4
  omega

/-! ## The blocks, read off the arrays -/

/-- The row block at point `t` holds rows `1024 t + p` of `x`. -/
theorem rowsBlk_at (c : Dev nD) (t : Fin cfg0.N) (p : Fin 1024) (q : Fin 256) :
    rowsBlk m c t (ix2 p q) = rowsArr m c (ix2 (rowAt (t.val * 1024) (tile_inb t) p) q) := by
  obtain ⟨e00, e01, -⟩ := idx_facts t
  show V m c main_arg0 (((cfg0.win 0).blk t).view.emb (ix2 p q)) = V m c main_arg0 _
  refine congrArg (V m c main_arg0) (funext fun a => Fin.ext ?_)
  match a with
  | ⟨0, _⟩ => show win0_0.index t (0 : Fin 2) * 1024 + 1 * p.val = t.val * 1024 + p.val; omega
  | ⟨1, _⟩ => show win0_0.index t (1 : Fin 2) * 256 + 1 * q.val = q.val; omega

/-- The weight block at point `t` is model `t / 4`'s stack of four matrices. -/
theorem wtsBlk_at (c : Dev nD) (t : Fin cfg0.N) (l : Fin 4) (k g : Fin 256) :
    wtsBlk m c t (ix4 (0 : Fin 1) l k g) = wtsArr m c (ix4 (modelAt t) l k g) := by
  obtain ⟨-, -, e10, e11, e12, e13, -⟩ := idx_facts t
  show V m c main_arg1 (((cfg0.win 1).blk t).view.emb (ix4 (0 : Fin 1) l k g)) = V m c main_arg1 _
  refine congrArg (V m c main_arg1) (funext fun a => Fin.ext ?_)
  match a with
  | ⟨0, _⟩ => show win0_1.index t (0 : Fin 4) * 1 + 1 * 0 = t.val / 4; omega
  | ⟨1, _⟩ => show win0_1.index t (1 : Fin 4) * 4 + 1 * l.val = l.val; omega
  | ⟨2, _⟩ => show win0_1.index t (2 : Fin 4) * 256 + 1 * k.val = k.val; omega
  | ⟨3, _⟩ => show win0_1.index t (3 : Fin 4) * 256 + 1 * g.val = g.val; omega

/-- The bias block at point `t` is model `t / 4`'s stack of four bias rows. -/
theorem biasBlk_at (c : Dev nD) (t : Fin cfg0.N) (l : Fin 4) (g : Fin 256) :
    biasBlk m c t (ix3 (0 : Fin 1) l g) = biasArr m c (ix3 (modelAt t) l g) := by
  obtain ⟨-, -, -, -, -, -, e20, e21, e22, -⟩ := idx_facts t
  show V m c main_arg2 (((cfg0.win 2).blk t).view.emb (ix3 (0 : Fin 1) l g)) = V m c main_arg2 _
  refine congrArg (V m c main_arg2) (funext fun a => Fin.ext ?_)
  match a with
  | ⟨0, _⟩ => show win0_2.index t (0 : Fin 3) * 1 + 1 * 0 = t.val / 4; omega
  | ⟨1, _⟩ => show win0_2.index t (1 : Fin 3) * 4 + 1 * l.val = l.val; omega
  | ⟨2, _⟩ => show win0_2.index t (2 : Fin 3) * 256 + 1 * g.val = g.val; omega

/-! ## A layer's matrix and bias row, loaded out of the stacks -/

/-- The load of layer `l`'s matrix out of a `[1, 4, 256, 256]` stack reads, at `(0, 0, k, g)`, the stack at
    `(0, l, k, g)`. -/
theorem ld_matrix (x1 : Vec Ideal S1x4x256x256 .f32) (l : Nat) (hl : l < 4)
    (inb : ∀ a, (![0, l, 0, 0] : Fin 4 → Nat) a + S1x1x256x256.size a ≤ S1x4x256x256.size a) (k g : Fin 256) :
    View.ld x1 (Rect.unit (s := S1x4x256x256) ![0, l, 0, 0] S1x1x256x256.size inb) (ix4 (0 : Fin 1) (0 : Fin 1) k g)
      = x1 (ix4 (0 : Fin 1) (⟨l, hl⟩ : Fin 4) k g) := by
  refine congrArg x1 (funext fun a => Fin.ext ?_)
  match a with
  | ⟨0, _⟩ => show 0 + 1 * 0 = 0; omega
  | ⟨1, _⟩ => show l + 1 * 0 = l; omega
  | ⟨2, _⟩ => show 0 + 1 * k.val = k.val; omega
  | ⟨3, _⟩ => show 0 + 1 * g.val = g.val; omega

/-- The load of layer `l`'s bias row out of a `[1, 4, 256]` stack reads, at `(0, 0, g)`, the stack at `(0, l, g)`. -/
theorem ld_bias (x2 : Vec Ideal S1x4x256 .f32) (l : Nat) (hl : l < 4)
    (inb : ∀ a, (![0, l, 0] : Fin 3 → Nat) a + S1x1x256.size a ≤ S1x4x256.size a) (g : Fin 256) :
    View.ld x2 (Rect.unit (s := S1x4x256) ![0, l, 0] S1x1x256.size inb) (ix3 (0 : Fin 1) (0 : Fin 1) g)
      = x2 (ix3 (0 : Fin 1) (⟨l, hl⟩ : Fin 4) g) := by
  refine congrArg x2 (funext fun a => Fin.ext ?_)
  match a with
  | ⟨0, _⟩ => show 0 + 1 * 0 = 0; omega
  | ⟨1, _⟩ => show l + 1 * 0 = l; omega
  | ⟨2, _⟩ => show 0 + 1 * g.val = g.val; omega

/-! ## What the body leaves in the output buffer -/

theorem zero_offsets : (![0, 0] : Fin 2 → Nat) = fun _ => 0 := funext fun a => by fin_cases a <;> rfl

/-- The body's one store covers the buffer, and its payload is four tile layers: of the row block, against the four
    matrices and bias rows loaded out of the weight and bias blocks. -/
theorem out_eq (x0 : Vec Ideal S1024x256 .f32) (x1 : Vec Ideal S1x4x256x256 .f32) (x2 : Vec Ideal S1x4x256 .f32) :
    out0_3 (F := Ideal) x0 x1 x2
      = tileLayer (tileLayer (tileLayer (tileLayer x0 (View.ld x1 r0_1) (View.ld x2 r0_2))
          (View.ld x1 r0_3) (View.ld x2 r0_4)) (View.ld x1 r0_5) (View.ld x2 r0_6)) (View.ld x1 r0_7) (View.ld x2 r0_8) := by
  unfold out0_3
  rw [View.canon_unit_zero zero_offsets, View.ld_unit_zero (S := S1024x256) zero_offsets, pay2_eq, pay1_eq]

/-! ## What a point writes back -/

/-- WHAT POINT `t` WRITES BACK is block `t` of the ensemble of the argument arrays. -/
theorem flushed_eq (c : Dev nD) (t : Fin cfg0.N) :
    (dats m 0 c).flushed 3 t
      = ((cfg0.win 3).blk t).view.read (Elt Ideal) (stack (rowsArr m c) (wtsArr m c) (biasArr m c)) := by
  refine (Value.flushed3 m c t).trans ?_
  rw [show out0_3 (iblk m c 0 t) (iblk m c 1 t) (iblk m c 2 t) = _ from
    out_eq (rowsBlk m c t) (wtsBlk m c t) (biasBlk m c t)]
  -- the four layers, each the restriction of the ensemble's layer to the tile's rows
  have L0 := tileLayer_restrict (wtsArr m c) (biasArr m c) 0 (t.val * 1024) (tile_inb t) (modelAt t) (tile_owner t)
    (rowsBlk m c t) (rowsArr m c) (rowsBlk_at m c t)
    (View.ld (wtsBlk m c t) r0_1) (fun k g => (ld_matrix (wtsBlk m c t) 0 (by decide) _ k g).trans (wtsBlk_at m c t 0 k g))
    (View.ld (biasBlk m c t) r0_2) (fun g => (ld_bias (biasBlk m c t) 0 (by decide) _ g).trans (biasBlk_at m c t 0 g))
  have L1 := tileLayer_restrict (wtsArr m c) (biasArr m c) 1 (t.val * 1024) (tile_inb t) (modelAt t) (tile_owner t)
    _ _ L0
    (View.ld (wtsBlk m c t) r0_3) (fun k g => (ld_matrix (wtsBlk m c t) 1 (by decide) _ k g).trans (wtsBlk_at m c t 1 k g))
    (View.ld (biasBlk m c t) r0_4) (fun g => (ld_bias (biasBlk m c t) 1 (by decide) _ g).trans (biasBlk_at m c t 1 g))
  have L2 := tileLayer_restrict (wtsArr m c) (biasArr m c) 2 (t.val * 1024) (tile_inb t) (modelAt t) (tile_owner t)
    _ _ L1
    (View.ld (wtsBlk m c t) r0_5) (fun k g => (ld_matrix (wtsBlk m c t) 2 (by decide) _ k g).trans (wtsBlk_at m c t 2 k g))
    (View.ld (biasBlk m c t) r0_6) (fun g => (ld_bias (biasBlk m c t) 2 (by decide) _ g).trans (biasBlk_at m c t 2 g))
  have L3 := tileLayer_restrict (wtsArr m c) (biasArr m c) 3 (t.val * 1024) (tile_inb t) (modelAt t) (tile_owner t)
    _ _ L2
    (View.ld (wtsBlk m c t) r0_7) (fun k g => (ld_matrix (wtsBlk m c t) 3 (by decide) _ k g).trans (wtsBlk_at m c t 3 k g))
    (View.ld (biasBlk m c t) r0_8) (fun g => (ld_bias (biasBlk m c t) 3 (by decide) _ g).trans (biasBlk_at m c t 3 g))
  obtain ⟨-, -, -, -, -, -, -, -, -, e30, e31⟩ := idx_facts t
  funext y
  obtain ⟨p, q, rfl⟩ : ∃ (p : Fin 1024) (q : Fin 256), y = ix2 p q := ⟨y 0, y 1, eq_ix2 y⟩
  have he : ((cfg0.win 3).blk t).view.emb (ix2 p q) = ix2 (rowAt (t.val * 1024) (tile_inb t) p) q := by
    refine funext fun a => Fin.ext ?_
    match a with
    | ⟨0, _⟩ => show win0_3.index t (0 : Fin 2) * 1024 + 1 * p.val = t.val * 1024 + p.val; omega
    | ⟨1, _⟩ => show win0_3.index t (1 : Fin 2) * 256 + 1 * q.val = q.val; omega
  show _ = stack (rowsArr m c) (wtsArr m c) (biasArr m c) (((cfg0.win 3).blk t).view.emb (ix2 p q))
  rw [he]
  exact L3 p q

/-! ## The row tiles cover the result array -/

/-- An index of the array is in point `t`'s block iff each coordinate is in the block's range on its axis. -/
theorem mem_blk (t : Fin cfg0.N) (i : S262144x256.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v0).slice (win0_3.rect t)).set ↔ _
  rw [View.set_slice_whole, Rect.mem_set_unit]
  exact Iff.rfl

/-- Row `r` of the result is written by point `r / 1024`. -/
theorem cover (i : S262144x256.Idx) :
    ∃ t : Fin cfg0.N, (cfg0.win 3).flush t = true ∧ i ∈ ((cfg0.win 3).blk t).view.set := by
  have hi0 : (i 0).val < 262144 := (i 0).isLt
  have hi1 : (i 1).val < 256 := (i 1).isLt
  let t : Fin cfg0.N := ⟨(i 0).val / 1024, by show (i 0).val / 1024 < 256; omega⟩
  obtain ⟨-, -, -, -, -, -, -, -, -, e30, e31⟩ := idx_facts t
  have ht : t.val = (i 0).val / 1024 := rfl
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 256 ≤ (i 1).val ∧ (i 1).val < win0_3.index t (1 : Fin 2) * 256 + 256
    omega

/-- THE RESULT ARRAY after the run is the ensemble of the argument arrays. -/
theorem final (c : Dev nD) :
    (dats m 0 c).arrAt 3 cfg0.N = stack (rowsArr m c) (wtsArr m c) (biasArr m c) :=
  (dats m 0 c).arrAt_eq_of_cover 3 (stack (rowsArr m c) (wtsArr m c) (biasArr m c))
    (fun t _ => flushed_eq m c t) cover

/-! ## The run, read -/

/-- Every weakly fair execution of the kernel program terminates with the result array at the ensemble of the
    argument arrays as launched, and the argument arrays unchanged. -/
theorem run : θ_run defs (onTc (τ := τ) (main (F := Ideal))) ⟨m, fun _ => 0, ρ⟩ fun r => ∀ c : Dev nD,
      r.2.mem ((c : Thread nD τ).loc main_v0)
        = stack (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefValue.lean ====
/-
  The reference, stage by stage, is the ensemble.

  The reference groups the rows by model (`[64, 4096, 256]`), and for each layer slices the layer's matrices
  and bias rows out of the stacked weights, multiplies per model (one batched product), adds the bias row to
  every row of the model's slice, and at the end ungroups the rows. Read at an index: the grouped input is
  `x` at row `a * 4096 + b`; the layer's sliced matrices and biases are `W[a, l, ·, ·]` and `b[a, l, ·]`; so each
  of the four stages is `Ensemble.grpLayer` of the stage before, which is `Ensemble.layer` regrouped; the last
  reshape ungroups.
-/
import proofs.«105987_j38663295599268_1_alg».proof.Proof.Gen.ReferenceIdeal.Read
import proofs.«105987_j38663295599268_1_alg».proof.Proof.Spec
import Idealize.ShloMosaic.Lib.ValueIdx

noncomputable section

open scoped BigOperators

namespace Cert.ReferenceIdeal.Stages

open Cert.ReferenceIdeal Cert.ReferenceIdeal.Read Cert.Ensemble Idealize.ShloMosaic Idealize.ShloMosaic.ValueIdx

/-! ## The grouped input, and the sliced matrices and bias rows -/

/-- The input grouped by model reads, at `(a, b, g)`, row `a * 4096 + b` of `x`. -/
theorem grouped_input (x0 : (⟨S262144x256, .f32⟩ : BufTy).Contents (Elt Ideal)) (a : Fin 64) (b : Fin 4096) (g : Fin 256) :
    val_main_v0 (F := Ideal) x0 (ix3 a b g) = x0 (ix2 (flat a b) g) := by
  rw [val_main_v0_apply]
  refine congrArg x0 (funext fun d => Fin.ext ?_)
  have ha := a.isLt; have hb := b.isLt; have hg := g.isLt
  match d with
  | ⟨0, _⟩ => show ((a.val * 4096 + b.val) * 256 + g.val) / 256 = a.val * 4096 + b.val; omega
  | ⟨1, _⟩ => show ((a.val * 4096 + b.val) * 256 + g.val) % 256 = g.val; omega

/-- Layer 0's matrices: at `(a, k, g)`, `W[a, 0, k, g]`. -/
theorem matrices0 (x1 : (⟨S64x4x256x256, .f32⟩ : BufTy).Contents (Elt Ideal)) (a : Fin 64) (k g : Fin 256) :
    val_main_v2 (F := Ideal) x1 (ix3 a k g) = x1 (ix4 a (0 : Fin 4) k g) := by
  rw [val_main_v2_apply, val_main_v1_apply]
  refine congrArg x1 (funext fun d => Fin.ext ?_)
  have ha := a.isLt; have hk := k.isLt; have hg := g.isLt
  match d with
  | ⟨0, _⟩ => show ((a.val * 256 + k.val) * 256 + g.val) / 65536 = a.val; omega
  | ⟨1, _⟩ => rfl
  | ⟨2, _⟩ => show ((a.val * 256 + k.val) * 256 + g.val) / 256 % 256 = k.val; omega
  | ⟨3, _⟩ => show ((a.val * 256 + k.val) * 256 + g.val) % 256 = g.val; omega

/-- Layer 1's matrices: at `(a, k, g)`, `W[a, 1, k, g]`. -/
theorem matrices1 (x1 : (⟨S64x4x256x256, .f32⟩ : BufTy).Contents (Elt Ideal)) (a : Fin 64) (k g : Fin 256) :
    val_main_v10 (F := Ideal) x1 (ix3 a k g) = x1 (ix4 a (1 : Fin 4) k g) := by
  rw [val_main_v10_apply, val_main_v9_apply]
  refine congrArg x1 (funext fun d => Fin.ext ?_)
  have ha := a.isLt; have hk := k.isLt; have hg := g.isLt
  match d with
  | ⟨0, _⟩ => show ((a.val * 256 + k.val) * 256 + g.val) / 65536 = a.val; omega
  | ⟨1, _⟩ => rfl
  | ⟨2, _⟩ => show ((a.val * 256 + k.val) * 256 + g.val) / 256 % 256 = k.val; omega
  | ⟨3, _⟩ => show ((a.val * 256 + k.val) * 256 + g.val) % 256 = g.val; omega

/-- Layer 2's matrices: at `(a, k, g)`, `W[a, 2, k, g]`. -/
theorem matrices2 (x1 : (⟨S64x4x256x256, .f32⟩ : BufTy).Contents (Elt Ideal)) (a : Fin 64) (k g : Fin 256) :
    val_main_v18 (F := Ideal) x1 (ix3 a k g) = x1 (ix4 a (2 : Fin 4) k g) := by
  rw [val_main_v18_apply, val_main_v17_apply]
  refine congrArg x1 (funext fun d => Fin.ext ?_)
  have ha := a.isLt; have hk := k.isLt; have hg := g.isLt
  match d with
  | ⟨0, _⟩ => show ((a.val * 256 + k.val) * 256 + g.val) / 65536 = a.val; omega
  | ⟨1, _⟩ => rfl
  | ⟨2, _⟩ => show ((a.val * 256 + k.val) * 256 + g.val) / 256 % 256 = k.val; omega
  | ⟨3, _⟩ => show ((a.val * 256 + k.val) * 256 + g.val) % 256 = g.val; omega

/-- Layer 3's matrices: at `(a, k, g)`, `W[a, 3, k, g]`. -/
theorem matrices3 (x1 : (⟨S64x4x256x256, .f32⟩ : BufTy).Contents (Elt Ideal)) (a : Fin 64) (k g : Fin 256) :
    val_main_v26 (F := Ideal) x1 (ix3 a k g) = x1 (ix4 a (3 : Fin 4) k g) := by
  rw [val_main_v26_apply, val_main_v25_apply]
  refine congrArg x1 (funext fun d => Fin.ext ?_)
  have ha := a.isLt; have hk := k.isLt; have hg := g.isLt
  match d with
  | ⟨0, _⟩ => show ((a.val * 256 + k.val) * 256 + g.val) / 65536 = a.val; omega
  | ⟨1, _⟩ => rfl
  | ⟨2, _⟩ => show ((a.val * 256 + k.val) * 256 + g.val) / 256 % 256 = k.val; omega
  | ⟨3, _⟩ => show ((a.val * 256 + k.val) * 256 + g.val) % 256 = g.val; omega

/-- Layer 0's bias, broadcast over the rows: at `(a, b, g)`, `bias[a, 0, g]` whatever the row `b`. -/
theorem biases0 (x2 : (⟨S64x4x256, .f32⟩ : BufTy).Contents (Elt Ideal)) (a : Fin 64) (b : Fin 4096) (g : Fin 256) :
    val_main_v7 (F := Ideal) x2 (ix3 a b g) = x2 (ix3 a (0 : Fin 4) g) := by
  rw [val_main_v7_apply, val_main_v6_apply, val_main_v5_apply, val_main_v4_apply]
  refine congrArg x2 (funext fun d => Fin.ext ?_)
  have ha := a.isLt; have hg := g.isLt
  match d with
  | ⟨0, _⟩ => show (a.val * 256 + g.val) / 256 = a.val; omega
  | ⟨1, _⟩ => rfl
  | ⟨2, _⟩ => show (a.val * 256 + g.val) % 256 = g.val; omega

/-- Layer 1's bias, broadcast over the rows. -/
theorem biases1 (x2 : (⟨S64x4x256, .f32⟩ : BufTy).Contents (Elt Ideal)) (a : Fin 64) (b : Fin 4096) (g : Fin 256) :
    val_main_v15 (F := Ideal) x2 (ix3 a b g) = x2 (ix3 a (1 : Fin 4) g) := by
  rw [val_main_v15_apply, val_main_v14_apply, val_main_v13_apply, val_main_v12_apply]
  refine congrArg x2 (funext fun d => Fin.ext ?_)
  have ha := a.isLt; have hg := g.isLt
  match d with
  | ⟨0, _⟩ => show (a.val * 256 + g.val) / 256 = a.val; omega
  | ⟨1, _⟩ => rfl
  | ⟨2, _⟩ => show (a.val * 256 + g.val) % 256 = g.val; omega

/-- Layer 2's bias, broadcast over the rows. -/
theorem biases2 (x2 : (⟨S64x4x256, .f32⟩ : BufTy).Contents (Elt Ideal)) (a : Fin 64) (b : Fin 4096) (g : Fin 256) :
    val_main_v23 (F := Ideal) x2 (ix3 a b g) = x2 (ix3 a (2 : Fin 4) g) := by
  rw [val_main_v23_apply, val_main_v22_apply, val_main_v21_apply, val_main_v20_apply]
  refine congrArg x2 (funext fun d => Fin.ext ?_)
  have ha := a.isLt; have hg := g.isLt
  match d with
  | ⟨0, _⟩ => show (a.val * 256 + g.val) / 256 = a.val; omega
  | ⟨1, _⟩ => rfl
  | ⟨2, _⟩ => show (a.val * 256 + g.val) % 256 = g.val; omega

/-- Layer 3's bias, broadcast over the rows. -/
theorem biases3 (x2 : (⟨S64x4x256, .f32⟩ : BufTy).Contents (Elt Ideal)) (a : Fin 64) (b : Fin 4096) (g : Fin 256) :
    val_main_v31 (F := Ideal) x2 (ix3 a b g) = x2 (ix3 a (3 : Fin 4) g) := by
  rw [val_main_v31_apply, val_main_v30_apply, val_main_v29_apply, val_main_v28_apply]
  refine congrArg x2 (funext fun d => Fin.ext ?_)
  have ha := a.isLt; have hg := g.isLt
  match d with
  | ⟨0, _⟩ => show (a.val * 256 + g.val) / 256 = a.val; omega
  | ⟨1, _⟩ => rfl
  | ⟨2, _⟩ => show (a.val * 256 + g.val) % 256 = g.val; omega

/-! ## Each stage is a grouped layer of the stage before -/

/-- The batched product's left index at `(a, b, g)`, contraction coordinate `k`: `(a, b, k)`. -/
theorem lidx_eq (a : Fin 64) (b : Fin 4096) (g k : Fin 256) : lidx_main_v3 (ix3 a b g) k = ix3 a b k :=
  funext fun d => match d with | ⟨0, _⟩ => rfl | ⟨1, _⟩ => rfl | ⟨2, _⟩ => rfl

/-- The batched product's right index at `(a, b, g)`, contraction coordinate `k`: `(a, k, g)`. -/
theorem ridx_eq (a : Fin 64) (b : Fin 4096) (g k : Fin 256) : ridx_main_v3 (ix3 a b g) k = ix3 a k g :=
  funext fun d => match d with | ⟨0, _⟩ => rfl | ⟨1, _⟩ => rfl | ⟨2, _⟩ => rfl

theorem stage0 (x0 : (⟨S262144x256, .f32⟩ : BufTy).Contents (Elt Ideal)) (x1 : (⟨S64x4x256x256, .f32⟩ : BufTy).Contents (Elt Ideal)) (x2 : (⟨S64x4x256, .f32⟩ : BufTy).Contents (Elt Ideal)) :
    val_main_v8 (F := Ideal) x0 x1 x2 = grpLayer x1 x2 0 (val_main_v0 (F := Ideal) x0) := by
  funext j
  obtain ⟨a, b, g, rfl⟩ : ∃ (a : Fin 64) (b : Fin 4096) (g : Fin 256), j = ix3 a b g := ⟨j 0, j 1, j 2, eq_ix3 j⟩
  rw [grpLayer_apply, val_main_v8_apply, val_main_v3_apply, biases0, Ideal.addf_def]
  generalize val_main_v0 (F := Ideal) x0 = H
  unfold grpLayerAt
  refine congrArg₂ (fun u v : EReal => u + v) (Finset.sum_congr rfl fun k _ => ?_) rfl
  rw [show lidx_main_v3 (ix3 a b g) k = ix3 a b k from lidx_eq a b g k,
    show ridx_main_v3 (ix3 a b g) k = ix3 a k g from ridx_eq a b g k, matrices0]

theorem stage1 (x0 : (⟨S262144x256, .f32⟩ : BufTy).Contents (Elt Ideal)) (x1 : (⟨S64x4x256x256, .f32⟩ : BufTy).Contents (Elt Ideal)) (x2 : (⟨S64x4x256, .f32⟩ : BufTy).Contents (Elt Ideal)) :
    val_main_v16 (F := Ideal) x0 x1 x2 = grpLayer x1 x2 1 (val_main_v8 (F := Ideal) x0 x1 x2) := by
  funext j
  obtain ⟨a, b, g, rfl⟩ : ∃ (a : Fin 64) (b : Fin 4096) (g : Fin 256), j = ix3 a b g := ⟨j 0, j 1, j 2, eq_ix3 j⟩
  rw [grpLayer_apply, val_main_v16_apply, val_main_v11_apply, biases1, Ideal.addf_def]
  generalize val_main_v8 (F := Ideal) x0 x1 x2 = H
  unfold grpLayerAt
  refine congrArg₂ (fun u v : EReal => u + v) (Finset.sum_congr rfl fun k _ => ?_) rfl
  rw [show lidx_main_v11 (ix3 a b g) k = ix3 a b k from lidx_eq a b g k,
    show ridx_main_v11 (ix3 a b g) k = ix3 a k g from ridx_eq a b g k, matrices1]

theorem stage2 (x0 : (⟨S262144x256, .f32⟩ : BufTy).Contents (Elt Ideal)) (x1 : (⟨S64x4x256x256, .f32⟩ : BufTy).Contents (Elt Ideal)) (x2 : (⟨S64x4x256, .f32⟩ : BufTy).Contents (Elt Ideal)) :
    val_main_v24 (F := Ideal) x0 x1 x2 = grpLayer x1 x2 2 (val_main_v16 (F := Ideal) x0 x1 x2) := by
  funext j
  obtain ⟨a, b, g, rfl⟩ : ∃ (a : Fin 64) (b : Fin 4096) (g : Fin 256), j = ix3 a b g := ⟨j 0, j 1, j 2, eq_ix3 j⟩
  rw [grpLayer_apply, val_main_v24_apply, val_main_v19_apply, biases2, Ideal.addf_def]
  generalize val_main_v16 (F := Ideal) x0 x1 x2 = H
  unfold grpLayerAt
  refine congrArg₂ (fun u v : EReal => u + v) (Finset.sum_congr rfl fun k _ => ?_) rfl
  rw [show lidx_main_v19 (ix3 a b g) k = ix3 a b k from lidx_eq a b g k,
    show ridx_main_v19 (ix3 a b g) k = ix3 a k g from ridx_eq a b g k, matrices2]

theorem stage3 (x0 : (⟨S262144x256, .f32⟩ : BufTy).Contents (Elt Ideal)) (x1 : (⟨S64x4x256x256, .f32⟩ : BufTy).Contents (Elt Ideal)) (x2 : (⟨S64x4x256, .f32⟩ : BufTy).Contents (Elt Ideal)) :
    val_main_v32 (F := Ideal) x0 x1 x2 = grpLayer x1 x2 3 (val_main_v24 (F := Ideal) x0 x1 x2) := by
  funext j
  obtain ⟨a, b, g, rfl⟩ : ∃ (a : Fin 64) (b : Fin 4096) (g : Fin 256), j = ix3 a b g := ⟨j 0, j 1, j 2, eq_ix3 j⟩
  rw [grpLayer_apply, val_main_v32_apply, val_main_v27_apply, biases3, Ideal.addf_def]
  generalize val_main_v24 (F := Ideal) x0 x1 x2 = H
  unfold grpLayerAt
  refine congrArg₂ (fun u v : EReal => u + v) (Finset.sum_congr rfl fun k _ => ?_) rfl
  rw [show lidx_main_v27 (ix3 a b g) k = ix3 a b k from lidx_eq a b g k,
    show ridx_main_v27 (ix3 a b g) k = ix3 a k g from ridx_eq a b g k, matrices3]

/-! ## The result -/

/-- THE REFERENCE'S RESULT IS THE ENSEMBLE: the last stage, ungrouped, is `Ensemble.stack` of the arguments. -/
theorem result_eq (x0 : (⟨S262144x256, .f32⟩ : BufTy).Contents (Elt Ideal)) (x1 : (⟨S64x4x256x256, .f32⟩ : BufTy).Contents (Elt Ideal)) (x2 : (⟨S64x4x256, .f32⟩ : BufTy).Contents (Elt Ideal)) :
    val_main_v33 (F := Ideal) x0 x1 x2 = stack x0 x1 x2 := by
  have h0 := grouped_input x0
  have h1 : ∀ (a : Fin 64) (b : Fin 4096) (g : Fin 256),
      val_main_v8 (F := Ideal) x0 x1 x2 (ix3 a b g) = layer x1 x2 0 x0 (ix2 (flat a b) g) := by
    rw [stage0]; exact grpLayer_flat x1 x2 0 _ _ h0
  have h2 : ∀ (a : Fin 64) (b : Fin 4096) (g : Fin 256),
      val_main_v16 (F := Ideal) x0 x1 x2 (ix3 a b g) = layer x1 x2 1 (layer x1 x2 0 x0) (ix2 (flat a b) g) := by
    rw [stage1]; exact grpLayer_flat x1 x2 1 _ _ h1
  have h3 : ∀ (a : Fin 64) (b : Fin 4096) (g : Fin 256),
      val_main_v24 (F := Ideal) x0 x1 x2 (ix3 a b g)
        = layer x1 x2 2 (layer x1 x2 1 (layer x1 x2 0 x0)) (ix2 (flat a b) g) := by
    rw [stage2]; exact grpLayer_flat x1 x2 2 _ _ h2
  have h4 : ∀ (a : Fin 64) (b : Fin 4096) (g : Fin 256),
      val_main_v32 (F := Ideal) x0 x1 x2 (ix3 a b g) = stack x0 x1 x2 (ix2 (flat a b) g) := by
    rw [stage3]; exact grpLayer_flat x1 x2 3 _ _ h3
  funext i
  obtain ⟨r, g, rfl⟩ : ∃ (r : Fin 262144) (g : Fin 256), i = ix2 r g := ⟨i 0, i 1, eq_ix2 i⟩
  have hr := r.isLt; have hg := g.isLt
  rw [val_main_v33_apply]
  have hi : idx_main_v33 (ix2 r g) = ix3 (owner r) (⟨r.val % 4096, Nat.mod_lt _ (by decide)⟩ : Fin 4096) g := by
    refine funext fun d => Fin.ext ?_
    match d with
    | ⟨0, _⟩ => show (r.val * 256 + g.val) / 1048576 = r.val / 4096; omega
    | ⟨1, _⟩ => show (r.val * 256 + g.val) / 256 % 4096 = r.val % 4096; omega
    | ⟨2, _⟩ => show (r.val * 256 + g.val) % 256 = g.val; omega
  have hf : flat (owner r) (⟨r.val % 4096, Nat.mod_lt _ (by decide)⟩ : Fin 4096) = r :=
    Fin.ext (by show r.val / 4096 * 4096 + r.val % 4096 = r.val; omega)
  rw [hi, h4, hf]

end Cert.ReferenceIdeal.Stages

end
-- ==== Proof.lean ====
/-
  A grouped linear ensemble: 64 models, each applying its own stack of four affine layers
  `h ↦ h · W[m, l] + b[m, l]` to its own slice of 4096 consecutive rows of `x : [262144, 256]`.

  The kernel walks a grid of (model, row tile of 1024 rows): at each point it holds one tile of the model's
  rows and the model's four matrices and bias rows, and applies the four layers to the tile, with the tile
  and the matrices narrowed to bf16 before each matrix product and the product accumulated in f32. The
  reference groups the rows by model and applies each layer to all models at once as one batched product.

  Over the extended reals a change of float format is the identity and both kinds of matrix product are the
  plain sum of products over the contracted index, so both programs compute, at row `r` (owned by model
  `r / 4096`) and feature `g`, four times over,
      h'[r, g] = ∑ k, h[r, k] * W[r / 4096, l, k, g] + b[r / 4096, l, g]:
  `Ensemble.stack` (Proof/Spec.lean). The kernel's side is Proof/KernelTile.lean (the body on a tile) and
  Proof/KernelValue.lean (the tiles cover the result array); the reference's side is Proof/RefValue.lean.
  The same products are added in the same order on both sides, so the equality asks nothing of the entries:
  the precondition (finite inputs) is not used. The integer argument `slice_bounds` is read by neither program.
  The idealized kernel is the kernel's own text read at the ideal instance (no rewrite was applied), so there
  is nothing to preserve.
-/
import proofs.«105987_j38663295599268_1_alg».proof.Defs
import proofs.«105987_j38663295599268_1_alg».proof.Proof.Gen.Kernel
import proofs.«105987_j38663295599268_1_alg».proof.Proof.Gen.Kernel.Skeleton
import proofs.«105987_j38663295599268_1_alg».proof.Proof.Gen.Kernel.Launch
import proofs.«105987_j38663295599268_1_alg».proof.Proof.Gen.Kernel.Points
import proofs.«105987_j38663295599268_1_alg».proof.Proof.Gen.Kernel.Frame
import proofs.«105987_j38663295599268_1_alg».proof.Proof.Gen.KernelIdeal
import proofs.«105987_j38663295599268_1_alg».proof.Proof.Gen.KernelIdeal.Skeleton
import proofs.«105987_j38663295599268_1_alg».proof.Proof.Gen.KernelIdeal.Launch
import proofs.«105987_j38663295599268_1_alg».proof.Proof.Gen.KernelIdeal.Points
import proofs.«105987_j38663295599268_1_alg».proof.Proof.Gen.KernelIdeal.Frame
import proofs.«105987_j38663295599268_1_alg».proof.Proof.Gen.ReferenceIdeal
import proofs.«105987_j38663295599268_1_alg».proof.Proof.Gen.Pre_finite_inputs
import proofs.«105987_j38663295599268_1_alg».proof.Proof.Gen.KernelIdeal.Value
import proofs.«105987_j38663295599268_1_alg».proof.Proof.Gen.ReferenceIdeal.Run
import proofs.«105987_j38663295599268_1_alg».proof.Proof.Gen.ReferenceIdeal.Read
import proofs.«105987_j38663295599268_1_alg».proof.Proof.KernelValue
import proofs.«105987_j38663295599268_1_alg».proof.Proof.RefValue
import Idealize.ShloMosaic.Adequacy
import Idealize.ShloMosaic.Init

noncomputable section

namespace Cert.Proof

open Idealize.ShloMosaic Idealize.SL.Sem

/-- The kernel as printed runs, and leaves its arguments as they were. -/
theorem frame_k : Cert.frame_Kernel := fun m ρ _ => Cert.Kernel.Gen.frame m ρ

/-- So does the kernel read at the ideal instance. -/
theorem frame_ki : Cert.frame_KernelIdeal := fun m ρ _ => Cert.KernelIdeal.Gen.frame m ρ

/-- The reference runs and leaves its arguments as they were: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, the kernel's result array ends at the ensemble of its arguments
    (tile by tile, the tiles covering the array) and the reference's at the ensemble of its own (stage by stage):
    one function of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.Stages.result_eq,
    (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
